-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x128 : Shape := ⟨2, ![1, 128]⟩

abbrev nBuf : Space → Nat
  | .hbm => 59
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S128 : S128.ShapeCasts S128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_6 : Ref sig .tc := ⟨.hbm, 74, rfl⟩
abbrev main_v50 : Ref sig .tc := ⟨.hbm, 75, rfl⟩
abbrev main_v51 : Ref sig .tc := ⟨.hbm, 76, rfl⟩
abbrev main_c_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, as functions of whole arrays over the extended reals.

  A GIN layer takes a node-feature matrix `x` and its neighbour sums `z` (one row per node) and returns
  `relu((z + x) · wa + ba) · wb + bb`, row by row; the first layer is followed by a relu, and a batch
  normalisation `((h - mean) · rsqrt(var + eps)) · γ + β` (per column statistics) sits between the two layers.
  Every one of these maps is ROW-LOCAL: row `r` of the result depends on row `r` of the row-indexed operands
  only. That is what lets a tiling by blocks of rows compute the whole-array function block by block, and it is
  stated here once for each map, for matrices of any number of rows.
-/
import Idealize.ShloMosaic.PureOps.Ideal
import Idealize.ShloMosaic.Lib.ValueIdx

noncomputable section

open scoped BigOperators

namespace Cert.GinSpec

open Idealize.ShloMosaic Idealize.ShloMosaic.ValueIdx

/-- An `n × d` matrix of extended reals. -/
abbrev Mat (n d : Nat) : Type := FVec Ideal ⟨2, ![n, d]⟩ .f32
/-- A vector of `d` extended reals. -/
abbrev Row (d : Nat) : Type := FVec Ideal ⟨1, ![d]⟩ .f32

/-- The zero both programs clamp at (the word of `0.0`, never evaluated). -/
def zero : Ideal .f32 := Ideal.ofBits .f32 0x00000000#32
/-- The variance offset of the normalisation (the word both programs spell). -/
def eps : Ideal .f32 := Ideal.ofBits .f32 0x3727C5AC#32

/-- Entry `(r, q)` of `z · w + b`: row `r` of `z` against column `q` of `w`, plus `b q`. -/
def affineAt {n d e : Nat} (z : Mat n d) (w : Mat d e) (b : Row e) (r : Fin n) (q : Fin e) : Ideal .f32 :=
  (∑ k : Fin d, z (ix2 r k) * w (ix2 k q)) + b (ix1 q)

/-- `z · w + b` with the bias broadcast over the rows. -/
def affine {n d e : Nat} (z : Mat n d) (w : Mat d e) (b : Row e) : Mat n e :=
  fun i => affineAt z w b (i 0) (i 1)

theorem affine_apply {n d e : Nat} (z : Mat n d) (w : Mat d e) (b : Row e) (r : Fin n) (q : Fin e) :
    affine z w b (ix2 r q) = (∑ k : Fin d, z (ix2 r k) * w (ix2 k q)) + b (ix1 q) := rfl

/-- The hidden activation `relu((z + x) · wa + ba)`. -/
def hidden {n : Nat} (z x : Mat n 128) (wa : Mat 128 128) (ba : Row 128) : Mat n 128 :=
  fun i => max (affine (fun j => z j + x j) wa ba i) zero

/-- The second GIN layer: `hidden · wb + bb`. -/
def gin2 {n : Nat} (z x : Mat n 128) (wa : Mat 128 128) (ba : Row 128) (wb : Mat 128 128) (bb : Row 128) : Mat n 128 :=
  affine (hidden z x wa ba) wb bb

/-- The first GIN layer: the same map followed by a relu. -/
def gin1 {n : Nat} (z x : Mat n 128) (wa : Mat 128 128) (ba : Row 128) (wb : Mat 128 128) (bb : Row 128) : Mat n 128 :=
  fun i => max (gin2 z x wa ba wb bb i) zero

/-- Batch normalisation with given column statistics: `((h - mean) · rsqrt(var + eps)) · γ + β`. -/
def bn {n : Nat} (h : Mat n 128) (mean var γ β : Row 128) : Mat n 128 :=
  fun i => ((h i - mean (ix1 (i 1))) * Ideal.rsqrt (var (ix1 (i 1)) + eps)) * γ (ix1 (i 1)) + β (ix1 (i 1))

theorem bn_apply {n : Nat} (h : Mat n 128) (mean var γ β : Row 128) (r : Fin n) (q : Fin 128) :
    bn h mean var γ β (ix2 r q) = ((h (ix2 r q) - mean (ix1 q)) * Ideal.rsqrt (var (ix1 q) + eps)) * γ (ix1 q) + β (ix1 q) := rfl

/-! ## Row locality -/

/-- Row `r` of `z · w + b` is determined by row `r` of `z`. -/
theorem affine_row {n n' d e : Nat} (z : Mat n d) (z' : Mat n' d) (w : Mat d e) (b : Row e) (r : Fin n) (r' : Fin n')
    (q : Fin e) (h : ∀ k, z (ix2 r k) = z' (ix2 r' k)) : affine z w b (ix2 r q) = affine z' w b (ix2 r' q) := by
  rw [affine_apply, affine_apply]
  exact congrArg (· + b (ix1 q)) (Finset.sum_congr rfl fun k _ => by rw [h k])

/-- Row `r` of the hidden activation is determined by rows `r` of `z` and `x`. -/
theorem hidden_row {n n' : Nat} (z x : Mat n 128) (z' x' : Mat n' 128) (wa : Mat 128 128) (ba : Row 128)
    (r : Fin n) (r' : Fin n') (q : Fin 128) (hz : ∀ k, z (ix2 r k) = z' (ix2 r' k)) (hx : ∀ k, x (ix2 r k) = x' (ix2 r' k)) :
    hidden z x wa ba (ix2 r q) = hidden z' x' wa ba (ix2 r' q) := by
  show max (affine (fun j => z j + x j) wa ba (ix2 r q)) zero = max (affine (fun j => z' j + x' j) wa ba (ix2 r' q)) zero
  rw [affine_row (fun j => z j + x j) (fun j => z' j + x' j) wa ba r r' q (fun k => by show z (ix2 r k) + x (ix2 r k) = z' (ix2 r' k) + x' (ix2 r' k); rw [hz k, hx k])]

/-- Row `r` of the second layer is determined by rows `r` of `z` and `x`. -/
theorem gin2_row {n n' : Nat} (z x : Mat n 128) (z' x' : Mat n' 128) (wa : Mat 128 128) (ba : Row 128) (wb : Mat 128 128)
    (bb : Row 128) (r : Fin n) (r' : Fin n') (q : Fin 128) (hz : ∀ k, z (ix2 r k) = z' (ix2 r' k))
    (hx : ∀ k, x (ix2 r k) = x' (ix2 r' k)) :
    gin2 z x wa ba wb bb (ix2 r q) = gin2 z' x' wa ba wb bb (ix2 r' q) :=
  affine_row _ _ wb bb r r' q fun k => hidden_row z x z' x' wa ba r r' k hz hx

/-- Row `r` of the first layer is determined by rows `r` of `z` and `x`. -/
theorem gin1_row {n n' : Nat} (z x : Mat n 128) (z' x' : Mat n' 128) (wa : Mat 128 128) (ba : Row 128) (wb : Mat 128 128)
    (bb : Row 128) (r : Fin n) (r' : Fin n') (q : Fin 128) (hz : ∀ k, z (ix2 r k) = z' (ix2 r' k))
    (hx : ∀ k, x (ix2 r k) = x' (ix2 r' k)) :
    gin1 z x wa ba wb bb (ix2 r q) = gin1 z' x' wa ba wb bb (ix2 r' q) := by
  show max (gin2 z x wa ba wb bb (ix2 r q)) zero = max (gin2 z' x' wa ba wb bb (ix2 r' q)) zero
  rw [gin2_row z x z' x' wa ba wb bb r r' q hz hx]

/-- Entry `(r, q)` of the normalisation is determined by entry `(r, q)` of `h`. -/
theorem bn_row {n n' : Nat} (h : Mat n 128) (h' : Mat n' 128) (mean var γ β : Row 128) (r : Fin n) (r' : Fin n') (q : Fin 128)
    (hh : h (ix2 r q) = h' (ix2 r' q)) : bn h mean var γ β (ix2 r q) = bn h' mean var γ β (ix2 r' q) := by
  rw [bn_apply, bn_apply, hh]

end Cert.GinSpec

end
-- ==== Proof.Pay.lean ====
/-
  The three kernel bodies, read at the ideal instance, are the row-local maps of the specification applied to
  the blocks they load: two affine layers with relus for the first and third kernels, the normalisation for
  the second. A change of float format is the identity on extended reals, a matrix product into a zero
  accumulator is the plain sum over the shared coordinate, and a bias `[128]` made a row `[1, 128]` and
  broadcast down the 5000 rows reads, at `(p, q)`, the bias at `q`.
-/
import proofs.«123605_j66915590472498_1_alg».proof.Proof.Gen.KernelIdeal.Skeleton
import proofs.«123605_j66915590472498_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.GinSpec

/-! ## The block product's index maps, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at `(p, q)`: row `p` of the left block against column `q` of the right. -/
theorem matmul_zero_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  show FloatOps.matmul dot_S5000x128_S128x128_S5000x128_1_0_0_1_n_n none A B (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A vector made a row and broadcast down the rows reads, at `(p, q)`, the vector at `q`. -/
theorem row_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ _ p q).trans (shapeCast_a_1a_apply _ _ 0 q)

/-! ## The bodies -/

theorem pay0_eq (x0 x1 : Vec Ideal S5000x128 .f32) (x2 : Vec Ideal S128x128 .f32) (x3 : Vec Ideal S128 .f32)
    (x4 : Vec Ideal S128x128 .f32) (x5 : Vec Ideal S128 .f32) :
    k0_pay1 (F := Ideal) x0 x1 x2 x3 x4 x5 = gin1 x0 x1 x2 x3 x4 x5 := by
  funext j
  obtain ⟨p, q, rfl⟩ : ∃ (p : Fin 5000) (q : Fin 128), j = ix2 p q := ⟨j 0, j 1, eq_ix2 j⟩
  simp only [k0_pay1, shapeCast_self, maximumf_apply, addf_apply, broadcast_apply, truncf_apply, matmul_zero_apply, row_apply]
  rfl

theorem pay1_eq (x0 : Vec Ideal S5000x128 .f32) (xvar xmean xg xb : Vec Ideal S128 .f32) :
    k1_pay1 (F := Ideal) x0 xvar xmean xg xb = bn x0 xmean xvar xg xb := by
  funext j
  obtain ⟨p, q, rfl⟩ : ∃ (p : Fin 5000) (q : Fin 128), j = ix2 p q := ⟨j 0, j 1, eq_ix2 j⟩
  simp only [k1_pay1, shapeCast_self, addf_apply, mulf_apply, subf_apply, row_apply]
  rfl

theorem pay2_eq (x0 x1 : Vec Ideal S5000x128 .f32) (x2 : Vec Ideal S128x128 .f32) (x3 : Vec Ideal S128 .f32)
    (x4 : Vec Ideal S128x128 .f32) (x5 : Vec Ideal S128 .f32) :
    k2_pay1 (F := Ideal) x0 x1 x2 x3 x4 x5 = gin2 x0 x1 x2 x3 x4 x5 := by
  funext j
  obtain ⟨p, q, rfl⟩ : ∃ (p : Fin 5000) (q : Fin 128), j = ix2 p q := ⟨j 0, j 1, eq_ix2 j⟩
  simp only [k2_pay1, shapeCast_self, maximumf_apply, addf_apply, broadcast_apply, truncf_apply, matmul_zero_apply, row_apply]
  rfl

end Cert.KernelIdeal.Pay

end
-- ==== Proof.Region0.lean ====
/-
  Region 0 of the program: the array the pallas_call leaves, as ONE function of the arrays it finds.

  The grid has 20 points; point `t` stages rows `5000 t … 5000 t + 4999` of each row-indexed operand, the
  whole of each small operand, and writes back rows `5000 t … 5000 t + 4999` of the result. The body computes
  a row-local map (Spec), so what point `t` writes back is rows `5000 t …` of that map applied to the WHOLE
  arrays; the twenty row blocks tile the array, so it ends holding the map of the arrays found at entry.
-/
import proofs.«123605_j66915590472498_1_alg».proof.Proof.Gen.KernelIdeal.Frame
import proofs.«123605_j66915590472498_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.GinSpec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-indexed window sits at block `(t, 0)`, a small operand at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- A small operand's block is the whole operand, at every point. -/
theorem blk2 (c : Dev nD) (t : Fin cfg0.N) : iblk0 V c 2 t = V c main_arg2 := by
  obtain ⟨-, -, -, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk3 (c : Dev nD) (t : Fin cfg0.N) : iblk0 V c 3 t = V c main_arg3 := by
  obtain ⟨-, -, -, -, -, -, -, -, e0, -⟩ := idx_facts t
  funext y
  show V c main_arg3 (((cfg0.win 3).blk t).view.emb y) = V c main_arg3 y
  refine congrArg _ (funext fun a => Fin.ext ?_)
  match a with
  | ⟨0, _⟩ => show win0_3.index t (0 : Fin 1) * 128 + 1 * (y 0).val = (y 0).val; omega
theorem blk4 (c : Dev nD) (t : Fin cfg0.N) : iblk0 V c 4 t = V c main_arg4 := by
  obtain ⟨-, -, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk5 (c : Dev nD) (t : Fin cfg0.N) : iblk0 V c 5 t = V c main_arg5 := by
  obtain ⟨-, -, -, -, -, -, -, -, -, -, -, e0⟩ := idx_facts t
  funext y
  show V c main_arg5 (((cfg0.win 5).blk t).view.emb y) = V c main_arg5 y
  refine congrArg _ (funext fun a => Fin.ext ?_)
  match a with
  | ⟨0, _⟩ => show win0_5.index t (0 : Fin 1) * 128 + 1 * (y 0).val = (y 0).val; omega

/-- Row `p` of a row-indexed operand's block at point `t` is row `5000 t + p` of the operand. -/
theorem blk0_row (c : Dev nD) (t : Fin cfg0.N) (p : Fin 5000) (k : Fin 128) (r : Fin 100000) (hr : r.val = t.val * 5000 + p.val) :
    iblk0 V c 0 t (ix2 p k) = V c main_v13 (ix2 r k) := by
  obtain ⟨e0, e1, -⟩ := idx_facts t
  show V c main_v13 (((cfg0.win 0).blk t).view.emb (ix2 p k)) = V c main_v13 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega
theorem blk1_row (c : Dev nD) (t : Fin cfg0.N) (p : Fin 5000) (k : Fin 128) (r : Fin 100000) (hr : r.val = t.val * 5000 + p.val) :
    iblk0 V c 1 t (ix2 p k) = V c main_arg0 (ix2 r k) := by
  obtain ⟨-, -, e0, e1, -⟩ := idx_facts t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Entry `(p, q)` of the output's block at point `t` sits at `(5000 t + p, q)` of the array. -/
theorem emb6 (t : Fin cfg0.N) (p : Fin 5000) (q : Fin 128) (r : Fin 100000) (hr : r.val = t.val * 5000 + p.val) :
    ((cfg0.win 6).blk t).view.emb (ix2 p q) = ix2 r q := by
  obtain ⟨-, -, -, -, e0, e1, -⟩ := idx_facts t
  refine funext fun a => Fin.ext ?_
  match a with
  | ⟨0, _⟩ => show win0_6.index t (0 : Fin 2) * 5000 + 1 * p.val = r.val; omega
  | ⟨1, _⟩ => show win0_6.index t (1 : Fin 2) * 128 + 1 * q.val = q.val; omega

/-- WHAT POINT `t` WRITES BACK is rows `5000 t …` of the first layer's map of the arrays the region finds. -/
theorem flushed_eq (hpay : ∀ x0 x1 x2 x3 x4 x5, k0_pay1 (F := Ideal) x0 x1 x2 x3 x4 x5 = gin1 x0 x1 x2 x3 x4 x5)
    (c : Dev nD) (t : Fin cfg0.N) :
    (dat0 V c).flushed 6 t = ((cfg0.win 6).blk t).view.read (Elt Ideal)
      (gin1 (V c main_v13) (V c main_arg0) (V c main_arg2) (V c main_arg3) (V c main_arg4) (V c main_arg5)) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S128) hz1]
  rw [hpay, blk2 V c t, blk3 V c t, blk4 V c t, blk5 V c t]
  funext j
  obtain ⟨p, q, rfl⟩ : ∃ (p : Fin 5000) (q : Fin 128), j = ix2 p q := ⟨j 0, j 1, eq_ix2 j⟩
  have hlt : t.val * 5000 + p.val < 100000 := by have := t.isLt; have h20 : cfg0.N = 20 := N_0; have := p.isLt; omega
  show gin1 (iblk0 V c 0 t) (iblk0 V c 1 t) (V c main_arg2) (V c main_arg3) (V c main_arg4) (V c main_arg5) (ix2 p q)
     = gin1 (V c main_v13) (V c main_arg0) (V c main_arg2) (V c main_arg3) (V c main_arg4) (V c main_arg5) (((cfg0.win 6).blk t).view.emb (ix2 p q))
  rw [emb6 t p q ⟨_, hlt⟩ rfl]
  exact gin1_row _ _ _ _ _ _ _ _ p ⟨_, hlt⟩ q (fun k => blk0_row V c t p k ⟨_, hlt⟩ rfl) (fun k => blk1_row V c t p k ⟨_, hlt⟩ rfl)

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v14).slice (win0_6.rect t)).set ↔ _
  rw [View.set_slice_whole, Rect.mem_set_unit]
  exact Iff.rfl

/-- Every index of the array is in the block of the point its row falls in. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have h20 : cfg0.N = 20 := N_0
  refine ⟨⟨(i 0).val / 5000, by omega⟩, flush0_6 _, ?_⟩
  rw [mem_blk]
  obtain ⟨-, -, -, -, e0, e1, -⟩ := idx_facts ⟨(i 0).val / 5000, by omega⟩
  intro a
  match a with
  | ⟨0, _⟩ => show win0_6.index _ (0 : Fin 2) * 5000 ≤ (i 0).val ∧ (i 0).val < win0_6.index _ (0 : Fin 2) * 5000 + 5000; rw [e0]; show (i 0).val / 5000 * 5000 ≤ (i 0).val ∧ (i 0).val < (i 0).val / 5000 * 5000 + 5000; omega
  | ⟨1, _⟩ => show win0_6.index _ (1 : Fin 2) * 128 ≤ (i 1).val ∧ (i 1).val < win0_6.index _ (1 : Fin 2) * 128 + 128; rw [e1]; omega

/-- THE ARRAY after region 0: the first layer's map of the arrays it finds. -/
theorem arr (hpay : ∀ x0 x1 x2 x3 x4 x5, k0_pay1 (F := Ideal) x0 x1 x2 x3 x4 x5 = gin1 x0 x1 x2 x3 x4 x5) (c : Dev nD) :
    (dat0 V c).arrAt 6 cfg0.N
      = gin1 (V c main_v13) (V c main_arg0) (V c main_arg2) (V c main_arg3) (V c main_arg4) (V c main_arg5) :=
  (dat0 V c).arrAt_eq_of_cover 6 _ (fun t _ => flushed_eq V hpay c t) cover

end Cert.KernelIdeal.Region0

end
-- ==== Proof.Region1.lean ====
/-
  Region 1 of the program: the array the pallas_call leaves, as ONE function of the arrays it finds.

  The grid has 20 points; point `t` stages rows `5000 t … 5000 t + 4999` of each row-indexed operand, the
  whole of each small operand, and writes back rows `5000 t … 5000 t + 4999` of the result. The body computes
  a row-local map (Spec), so what point `t` writes back is rows `5000 t …` of that map applied to the WHOLE
  arrays; the twenty row blocks tile the array, so it ends holding the map of the arrays found at entry.
-/
import proofs.«123605_j66915590472498_1_alg».proof.Proof.Gen.KernelIdeal.Frame
import proofs.«123605_j66915590472498_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.GinSpec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-indexed windows sit at block `(t, 0)`, a vector operand at block `0`. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 1) = 0
    ∧ win1_2.index t (0 : Fin 1) = 0
    ∧ win1_3.index t (0 : Fin 1) = 0
    ∧ win1_4.index t (0 : Fin 1) = 0 :=
  (by decide +kernel : ∀ t : Fin grid1.N, _)

/-- A vector operand's block is the whole vector, at every point. -/
theorem blk1 (c : Dev nD) (t : Fin cfg1.N) : iblk1 V c 1 t = V c main_v17 := by
  obtain ⟨-, -, -, -, e0, -⟩ := idx_facts t
  funext y
  show V c main_v17 (((cfg1.win 1).blk t).view.emb y) = V c main_v17 y
  refine congrArg _ (funext fun a => Fin.ext ?_)
  match a with
  | ⟨0, _⟩ => show win1_1.index t (0 : Fin 1) * 128 + 1 * (y 0).val = (y 0).val; omega
theorem blk2 (c : Dev nD) (t : Fin cfg1.N) : iblk1 V c 2 t = V c main_v24 := by
  obtain ⟨-, -, -, -, -, e0, -⟩ := idx_facts t
  funext y
  show V c main_v24 (((cfg1.win 2).blk t).view.emb y) = V c main_v24 y
  refine congrArg _ (funext fun a => Fin.ext ?_)
  match a with
  | ⟨0, _⟩ => show win1_2.index t (0 : Fin 1) * 128 + 1 * (y 0).val = (y 0).val; omega
theorem blk3 (c : Dev nD) (t : Fin cfg1.N) : iblk1 V c 3 t = V c main_arg6 := by
  obtain ⟨-, -, -, -, -, -, e0, -⟩ := idx_facts t
  funext y
  show V c main_arg6 (((cfg1.win 3).blk t).view.emb y) = V c main_arg6 y
  refine congrArg _ (funext fun a => Fin.ext ?_)
  match a with
  | ⟨0, _⟩ => show win1_3.index t (0 : Fin 1) * 128 + 1 * (y 0).val = (y 0).val; omega
theorem blk4 (c : Dev nD) (t : Fin cfg1.N) : iblk1 V c 4 t = V c main_arg7 := by
  obtain ⟨-, -, -, -, -, -, -, e0⟩ := idx_facts t
  funext y
  show V c main_arg7 (((cfg1.win 4).blk t).view.emb y) = V c main_arg7 y
  refine congrArg _ (funext fun a => Fin.ext ?_)
  match a with
  | ⟨0, _⟩ => show win1_4.index t (0 : Fin 1) * 128 + 1 * (y 0).val = (y 0).val; omega

/-- Entry `(p, k)` of the row-indexed operand's block at point `t` is entry `(5000 t + p, k)` of the operand. -/
theorem blk0_row (c : Dev nD) (t : Fin cfg1.N) (p : Fin 5000) (k : Fin 128) (r : Fin 100000) (hr : r.val = t.val * 5000 + p.val) :
    iblk1 V c 0 t (ix2 p k) = V c main_v14 (ix2 r k) := by
  obtain ⟨e0, e1, -⟩ := idx_facts t
  show V c main_v14 (((cfg1.win 0).blk t).view.emb (ix2 p k)) = V c main_v14 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry `(p, q)` of the output's block at point `t` sits at `(5000 t + p, q)` of the array. -/
theorem emb5 (t : Fin cfg1.N) (p : Fin 5000) (q : Fin 128) (r : Fin 100000) (hr : r.val = t.val * 5000 + p.val) :
    ((cfg1.win 5).blk t).view.emb (ix2 p q) = ix2 r q := by
  obtain ⟨-, -, e0, e1, -⟩ := idx_facts t
  refine funext fun a => Fin.ext ?_
  match a with
  | ⟨0, _⟩ => show win1_5.index t (0 : Fin 2) * 5000 + 1 * p.val = r.val; omega
  | ⟨1, _⟩ => show win1_5.index t (1 : Fin 2) * 128 + 1 * q.val = q.val; omega

/-- WHAT POINT `t` WRITES BACK is rows `5000 t …` of the normalisation of the arrays the region finds. -/
theorem flushed_eq (hpay : ∀ x0 xvar xmean xg xb, k1_pay1 (F := Ideal) x0 xvar xmean xg xb = bn x0 xmean xvar xg xb)
    (c : Dev nD) (t : Fin cfg1.N) :
    (dat1 V c).flushed 5 t = ((cfg1.win 5).blk t).view.read (Elt Ideal)
      (bn (V c main_v14) (V c main_v17) (V c main_v24) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128) hz1]
  rw [hpay, blk1 V c t, blk2 V c t, blk3 V c t, blk4 V c t]
  funext j
  obtain ⟨p, q, rfl⟩ : ∃ (p : Fin 5000) (q : Fin 128), j = ix2 p q := ⟨j 0, j 1, eq_ix2 j⟩
  have hlt : t.val * 5000 + p.val < 100000 := by have := t.isLt; have h20 : cfg1.N = 20 := N_1; have := p.isLt; omega
  show bn (iblk1 V c 0 t) (V c main_v17) (V c main_v24) (V c main_arg6) (V c main_arg7) (ix2 p q)
     = bn (V c main_v14) (V c main_v17) (V c main_v24) (V c main_arg6) (V c main_arg7) (((cfg1.win 5).blk t).view.emb (ix2 p q))
  rw [emb5 t p q ⟨_, hlt⟩ rfl]
  exact bn_row _ _ _ _ _ _ p ⟨_, hlt⟩ q (blk0_row V c t p q ⟨_, hlt⟩ rfl)

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- Every index of the array is in the block of the point its row falls in. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have h20 : cfg1.N = 20 := N_1
  refine ⟨⟨(i 0).val / 5000, by omega⟩, flush1_5 _, ?_⟩
  rw [mem_blk]
  obtain ⟨-, -, e0, e1, -⟩ := idx_facts ⟨(i 0).val / 5000, by omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- THE ARRAY after region 1: the normalisation of the arrays it finds. -/
theorem arr (hpay : ∀ x0 xvar xmean xg xb, k1_pay1 (F := Ideal) x0 xvar xmean xg xb = bn x0 xmean xvar xg xb) (c : Dev nD) :
    (dat1 V c).arrAt 5 cfg1.N
      = bn (V c main_v14) (V c main_v17) (V c main_v24) (V c main_arg6) (V c main_arg7) :=
  (dat1 V c).arrAt_eq_of_cover 5 _ (fun t _ => flushed_eq V hpay c t) cover

end Cert.KernelIdeal.Region1

end
-- ==== Proof.Region2.lean ====
/-
  Region 2 of the program: the array the pallas_call leaves, as ONE function of the arrays it finds.

  The grid has 20 points; point `t` stages rows `5000 t … 5000 t + 4999` of each row-indexed operand, the
  whole of each small operand, and writes back rows `5000 t … 5000 t + 4999` of the result. The body computes
  a row-local map (Spec), so what point `t` writes back is rows `5000 t …` of that map applied to the WHOLE
  arrays; the twenty row blocks tile the array, so it ends holding the map of the arrays found at entry.
-/
import proofs.«123605_j66915590472498_1_alg».proof.Proof.Gen.KernelIdeal.Frame
import proofs.«123605_j66915590472498_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.GinSpec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: a row-indexed window sits at block `(t, 0)`, a small operand at block `0`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0 :=
  (by decide +kernel : ∀ t : Fin grid2.N, _)

/-- A small operand's block is the whole operand, at every point. -/
theorem blk2 (c : Dev nD) (t : Fin cfg2.N) : iblk2 V c 2 t = V c main_arg8 := by
  obtain ⟨-, -, -, -, -, -, e0, e1, -⟩ := idx_facts t
  funext y
  show V c main_arg8 (((cfg2.win 2).blk t).view.emb y) = V c main_arg8 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem blk3 (c : Dev nD) (t : Fin cfg2.N) : iblk2 V c 3 t = V c main_arg9 := by
  obtain ⟨-, -, -, -, -, -, -, -, e0, -⟩ := idx_facts t
  funext y
  show V c main_arg9 (((cfg2.win 3).blk t).view.emb y) = V c main_arg9 y
  refine congrArg _ (funext fun a => Fin.ext ?_)
  match a with
  | ⟨0, _⟩ => show win2_3.index t (0 : Fin 1) * 128 + 1 * (y 0).val = (y 0).val; omega
theorem blk4 (c : Dev nD) (t : Fin cfg2.N) : iblk2 V c 4 t = V c main_arg10 := by
  obtain ⟨-, -, -, -, -, -, -, -, -, e0, e1, -⟩ := idx_facts t
  funext y
  show V c main_arg10 (((cfg2.win 4).blk t).view.emb y) = V c main_arg10 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem blk5 (c : Dev nD) (t : Fin cfg2.N) : iblk2 V c 5 t = V c main_arg11 := by
  obtain ⟨-, -, -, -, -, -, -, -, -, -, -, e0⟩ := idx_facts t
  funext y
  show V c main_arg11 (((cfg2.win 5).blk t).view.emb y) = V c main_arg11 y
  refine congrArg _ (funext fun a => Fin.ext ?_)
  match a with
  | ⟨0, _⟩ => show win2_5.index t (0 : Fin 1) * 128 + 1 * (y 0).val = (y 0).val; omega

/-- Row `p` of a row-indexed operand's block at point `t` is row `5000 t + p` of the operand. -/
theorem blk0_row (c : Dev nD) (t : Fin cfg2.N) (p : Fin 5000) (k : Fin 128) (r : Fin 100000) (hr : r.val = t.val * 5000 + p.val) :
    iblk2 V c 0 t (ix2 p k) = V c main_v35 (ix2 r k) := by
  obtain ⟨e0, e1, -⟩ := idx_facts t
  show V c main_v35 (((cfg2.win 0).blk t).view.emb (ix2 p k)) = V c main_v35 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega
theorem blk1_row (c : Dev nD) (t : Fin cfg2.N) (p : Fin 5000) (k : Fin 128) (r : Fin 100000) (hr : r.val = t.val * 5000 + p.val) :
    iblk2 V c 1 t (ix2 p k) = V c main_v25 (ix2 r k) := by
  obtain ⟨-, -, e0, e1, -⟩ := idx_facts t
  show V c main_v25 (((cfg2.win 1).blk t).view.emb (ix2 p k)) = V c main_v25 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Entry `(p, q)` of the output's block at point `t` sits at `(5000 t + p, q)` of the array. -/
theorem emb6 (t : Fin cfg2.N) (p : Fin 5000) (q : Fin 128) (r : Fin 100000) (hr : r.val = t.val * 5000 + p.val) :
    ((cfg2.win 6).blk t).view.emb (ix2 p q) = ix2 r q := by
  obtain ⟨-, -, -, -, e0, e1, -⟩ := idx_facts t
  refine funext fun a => Fin.ext ?_
  match a with
  | ⟨0, _⟩ => show win2_6.index t (0 : Fin 2) * 5000 + 1 * p.val = r.val; omega
  | ⟨1, _⟩ => show win2_6.index t (1 : Fin 2) * 128 + 1 * q.val = q.val; omega

/-- WHAT POINT `t` WRITES BACK is rows `5000 t …` of the second layer's map of the arrays the region finds. -/
theorem flushed_eq (hpay : ∀ x0 x1 x2 x3 x4 x5, k2_pay1 (F := Ideal) x0 x1 x2 x3 x4 x5 = gin2 x0 x1 x2 x3 x4 x5)
    (c : Dev nD) (t : Fin cfg2.N) :
    (dat2 V c).flushed 6 t = ((cfg2.win 6).blk t).view.read (Elt Ideal)
      (gin2 (V c main_v35) (V c main_v25) (V c main_arg8) (V c main_arg9) (V c main_arg10) (V c main_arg11)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  rw [hpay, blk2 V c t, blk3 V c t, blk4 V c t, blk5 V c t]
  funext j
  obtain ⟨p, q, rfl⟩ : ∃ (p : Fin 5000) (q : Fin 128), j = ix2 p q := ⟨j 0, j 1, eq_ix2 j⟩
  have hlt : t.val * 5000 + p.val < 100000 := by have := t.isLt; have h20 : cfg2.N = 20 := N_2; have := p.isLt; omega
  show gin2 (iblk2 V c 0 t) (iblk2 V c 1 t) (V c main_arg8) (V c main_arg9) (V c main_arg10) (V c main_arg11) (ix2 p q)
     = gin2 (V c main_v35) (V c main_v25) (V c main_arg8) (V c main_arg9) (V c main_arg10) (V c main_arg11) (((cfg2.win 6).blk t).view.emb (ix2 p q))
  rw [emb6 t p q ⟨_, hlt⟩ rfl]
  exact gin2_row _ _ _ _ _ _ _ _ p ⟨_, hlt⟩ q (fun k => blk0_row V c t p k ⟨_, hlt⟩ rfl) (fun k => blk1_row V c t p k ⟨_, hlt⟩ rfl)

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v36).slice (win2_6.rect t)).set ↔ _
  rw [View.set_slice_whole, Rect.mem_set_unit]
  exact Iff.rfl

/-- Every index of the array is in the block of the point its row falls in. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have h20 : cfg2.N = 20 := N_2
  refine ⟨⟨(i 0).val / 5000, by omega⟩, flush2_6 _, ?_⟩
  rw [mem_blk]
  obtain ⟨-, -, -, -, e0, e1, -⟩ := idx_facts ⟨(i 0).val / 5000, by omega⟩
  intro a
  match a with
  | ⟨0, _⟩ => show win2_6.index _ (0 : Fin 2) * 5000 ≤ (i 0).val ∧ (i 0).val < win2_6.index _ (0 : Fin 2) * 5000 + 5000; rw [e0]; show (i 0).val / 5000 * 5000 ≤ (i 0).val ∧ (i 0).val < (i 0).val / 5000 * 5000 + 5000; omega
  | ⟨1, _⟩ => show win2_6.index _ (1 : Fin 2) * 128 ≤ (i 1).val ∧ (i 1).val < win2_6.index _ (1 : Fin 2) * 128 + 128; rw [e1]; omega

/-- THE ARRAY after region 2: the second layer's map of the arrays it finds. -/
theorem arr (hpay : ∀ x0 x1 x2 x3 x4 x5, k2_pay1 (F := Ideal) x0 x1 x2 x3 x4 x5 = gin2 x0 x1 x2 x3 x4 x5) (c : Dev nD) :
    (dat2 V c).arrAt 6 cfg2.N
      = gin2 (V c main_v35) (V c main_v25) (V c main_arg8) (V c main_arg9) (V c main_arg10) (V c main_arg11) :=
  (dat2 V c).arrAt_eq_of_cover 6 _ (fun t _ => flushed_eq V hpay c t) cover

end Cert.KernelIdeal.Region2

end
-- ==== Proof.HostFns.lean ====
/-
  The operations both programs leave to the host, each as one function, and the whole computation as their
  composition with the specification's layers.

  The neighbour sum gathers the rows of `h` at the source ids (a negative id wrapped once, as jnp indexing does)
  and scatter-adds them at the destination ids into a zero array; the column mean is a sum over the rows divided
  by the row count, the column variance the mean of the squared deviations. None of these is opened anywhere:
  both programs apply them, and the proofs only ever compare their arguments.
-/
import proofs.«123605_j66915590472498_1_alg».proof.KernelIdeal
import proofs.«123605_j66915590472498_1_alg».proof.Proof.Spec

noncomputable section

namespace Cert.GinHost

open Idealize.ShloMosaic Cert.KernelIdeal Cert.KernelIdeal.Facts₀ Cert.GinSpec

variable [Cert.KernelIdeal.Facts₀]
variable {F : FTy → Type} [FloatOps F]

/-- The source ids: row 0 of the edge list, flattened. -/
def srcOf (E : (⟨S2x1600000, .i32⟩ : BufTy).Contents (Elt F)) : (⟨S1600000, .i32⟩ : BufTy).Contents (Elt F) :=
  shapeCast _ (extractStridedSlice S1x1600000 ![0, 0] E slices_S2x1600000_S1x1600000_0_0) shapeCasts_S1x1600000_S1600000

/-- The destination ids: row 1 of the edge list, flattened. -/
def dstOf (E : (⟨S2x1600000, .i32⟩ : BufTy).Contents (Elt F)) : (⟨S1600000, .i32⟩ : BufTy).Contents (Elt F) :=
  shapeCast _ (extractStridedSlice S1x1600000 ![1, 0] E slices_S2x1600000_S1x1600000_1_0) shapeCasts_S1x1600000_S1600000

/-- The neighbour sum: rows of `h` gathered at the (wrapped) source ids, scatter-added at the destination ids. -/
def aggOf (h : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A column vector repeated down the rows. -/
def rowOf (μ : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 μ)

/-- The column sums divided by the row count. -/
def meanOf (h : (⟨S100000x128, .f32⟩ : BufTy).Contents (Elt F)) : (⟨S128, .f32⟩ : BufTy).Contents (Elt F) :=
  Host.divf (Host.reduceAdd h (constant S_ .f32 0x00000000#32) reducesTo_S100000x128_S128_d0 h_S_)
    (broadcastInDim S128 ![] bcast_S_S128 (constant S_ .f32 0x47C35000#32))

/-- The column means of the squared deviations from `μ`. -/
def varOf (h : (⟨S100000x128, .f32⟩ : BufTy).Contents (Elt F)) (μ : (⟨S128, .f32⟩ : BufTy).Contents (Elt F)) :
    (⟨S128, .f32⟩ : BufTy).Contents (Elt F) :=
  Host.divf (Host.reduceAdd (mulf (subf h (rowOf μ)) (subf h (rowOf μ))) (constant S_ .f32 0x00000000#32) reducesTo_S100000x128_S128_d0 h_S_)
    (broadcastInDim S128 ![] bcast_S_S128 (constant S_ .f32 0x47C35000#32))

/-! ## The whole computation, over the extended reals -/

/-- The first GIN layer (with its relu) on the node features and their neighbour sums. -/
def layer1 (X : Mat 100000 128) (E : (⟨S2x1600000, .i32⟩ : BufTy).Contents (Elt Ideal)) (w1a : Mat 128 128) (b1a : Row 128)
    (w1b : Mat 128 128) (b1b : Row 128) : Mat 100000 128 :=
  gin1 (aggOf (F := Ideal) X (srcOf E) (dstOf E)) X w1a b1a w1b b1b

/-- Batch normalisation with the batch's own column statistics. -/
def normed (H : Mat 100000 128) (γ β : Row 128) : Mat 100000 128 :=
  bn H (meanOf (F := Ideal) H) (varOf (F := Ideal) H (meanOf (F := Ideal) H)) γ β

/-- The second GIN layer on the normalised features and their neighbour sums. -/
def layer2 (B : Mat 100000 128) (E : (⟨S2x1600000, .i32⟩ : BufTy).Contents (Elt Ideal)) (w2a : Mat 128 128) (b2a : Row 128)
    (w2b : Mat 128 128) (b2b : Row 128) : Mat 100000 128 :=
  gin2 (aggOf (F := Ideal) B (srcOf E) (dstOf E)) B w2a b2a w2b b2b

/-- What both programs return. -/
def result (X : Mat 100000 128) (E : (⟨S2x1600000, .i32⟩ : BufTy).Contents (Elt Ideal)) (w1a : Mat 128 128) (b1a : Row 128)
    (w1b : Mat 128 128) (b1b : Row 128) (γ β : Row 128) (w2a : Mat 128 128) (b2a : Row 128) (w2b : Mat 128 128) (b2b : Row 128) :
    Mat 100000 128 :=
  layer2 (normed (layer1 X E w1a b1a w1b b1b) γ β) E w2a b2a w2b b2b

end Cert.GinHost

end
-- ==== Proof.Chain.lean ====
/-
  The result buffer's contents at the last boundary of the run, read back through the three regions and the
  host stretches between them: each region leaves its row-local map of the arrays it finds (Region0 … Region2),
  each host stretch its operations' values, and a buffer nobody writes in between keeps what it held. Composed,
  the result buffer ends at `result` of the launch contents of the twelve arguments.
-/
import proofs.«123605_j66915590472498_1_alg».proof.Proof.Gen.KernelIdeal.Frame
import proofs.«123605_j66915590472498_1_alg».proof.Proof.Pay
import proofs.«123605_j66915590472498_1_alg».proof.Proof.Region0
import proofs.«123605_j66915590472498_1_alg».proof.Proof.Region1
import proofs.«123605_j66915590472498_1_alg».proof.Proof.Region2
import proofs.«123605_j66915590472498_1_alg».proof.Proof.HostFns
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.GinSpec Cert.GinHost
open Idealize.ShloMosaic.Pipeline (Dat Cfg Window)

variable (m : (ℓ : Loc nD τ sig) → Buf (Elt Ideal) ℓ) (ρ : Dev nD → PrngReg)

/-- No operation of the named host stretch writes the buffer in the goal `after ops V b = V b`: each operation's
    result buffer is another reference. -/
macro "not_written " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## After the first host stretch (region 0's entry): the arguments as launched, the ids, the neighbour sums -/

theorem W1_arg0 (c : Dev nD) : W1 m ρ c (Proc.devRef .tc main_arg0) = m ((c : Thread nD τ).loc main_arg0) :=
  (by not_written hostOps0 : W1 m ρ c (Proc.devRef .tc main_arg0) = W0 m ρ c (Proc.devRef .tc main_arg0))
theorem W1_arg2 (c : Dev nD) : W1 m ρ c (Proc.devRef .tc main_arg2) = m ((c : Thread nD τ).loc main_arg2) :=
  (by not_written hostOps0 : W1 m ρ c (Proc.devRef .tc main_arg2) = W0 m ρ c (Proc.devRef .tc main_arg2))
theorem W1_arg3 (c : Dev nD) : W1 m ρ c (Proc.devRef .tc main_arg3) = m ((c : Thread nD τ).loc main_arg3) :=
  (by not_written hostOps0 : W1 m ρ c (Proc.devRef .tc main_arg3) = W0 m ρ c (Proc.devRef .tc main_arg3))
theorem W1_arg4 (c : Dev nD) : W1 m ρ c (Proc.devRef .tc main_arg4) = m ((c : Thread nD τ).loc main_arg4) :=
  (by not_written hostOps0 : W1 m ρ c (Proc.devRef .tc main_arg4) = W0 m ρ c (Proc.devRef .tc main_arg4))
theorem W1_arg5 (c : Dev nD) : W1 m ρ c (Proc.devRef .tc main_arg5) = m ((c : Thread nD τ).loc main_arg5) :=
  (by not_written hostOps0 : W1 m ρ c (Proc.devRef .tc main_arg5) = W0 m ρ c (Proc.devRef .tc main_arg5))
theorem W1_arg6 (c : Dev nD) : W1 m ρ c (Proc.devRef .tc main_arg6) = m ((c : Thread nD τ).loc main_arg6) :=
  (by not_written hostOps0 : W1 m ρ c (Proc.devRef .tc main_arg6) = W0 m ρ c (Proc.devRef .tc main_arg6))
theorem W1_arg7 (c : Dev nD) : W1 m ρ c (Proc.devRef .tc main_arg7) = m ((c : Thread nD τ).loc main_arg7) :=
  (by not_written hostOps0 : W1 m ρ c (Proc.devRef .tc main_arg7) = W0 m ρ c (Proc.devRef .tc main_arg7))

theorem W1_v1 (c : Dev nD) : W1 m ρ c (Proc.devRef .tc main_v1) = srcOf (m ((c : Thread nD τ).loc main_arg1)) := by
  dsimp only [W1, hostOps0]
  after_results
  rfl
theorem W1_v3 (c : Dev nD) : W1 m ρ c (Proc.devRef .tc main_v3) = dstOf (m ((c : Thread nD τ).loc main_arg1)) := by
  dsimp only [W1, hostOps0]
  after_results
  rfl
theorem W1_v13 (c : Dev nD) : W1 m ρ c (Proc.devRef .tc main_v13)
    = aggOf (m ((c : Thread nD τ).loc main_arg0)) (srcOf (m ((c : Thread nD τ).loc main_arg1))) (dstOf (m ((c : Thread nD τ).loc main_arg1))) := by
  dsimp only [W1, hostOps0]
  after_results
  rfl

/-! ## After region 0: the first layer's output; the other buffers as they were -/

theorem W2_v14 (c : Dev nD) : W2 m ρ c (Proc.devRef .tc main_v14) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ((Region0.arr (V1 m ρ) Pay.pay0_eq c).trans ?_)
  rw [show V1 m ρ c main_v13 = _ from W1_v13 m ρ c, show V1 m ρ c main_arg0 = _ from W1_arg0 m ρ c,
    show V1 m ρ c main_arg2 = _ from W1_arg2 m ρ c, show V1 m ρ c main_arg3 = _ from W1_arg3 m ρ c,
    show V1 m ρ c main_arg4 = _ from W1_arg4 m ρ c, show V1 m ρ c main_arg5 = _ from W1_arg5 m ρ c]
  rfl
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## After the second host stretch (region 1's entry): the column statistics of the first layer's output -/

theorem W3_v14 (c : Dev nD) : W3 m ρ c (Proc.devRef .tc main_v14) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (by not_written hostOps1 : W3 m ρ c (Proc.devRef .tc main_v14) = W2 m ρ c (Proc.devRef .tc main_v14)).trans (W2_v14 m ρ c)
theorem W3_v1 (c : Dev nD) : W3 m ρ c (Proc.devRef .tc main_v1) = srcOf (m ((c : Thread nD τ).loc main_arg1)) :=
  (by not_written hostOps1 : W3 m ρ c (Proc.devRef .tc main_v1) = W2 m ρ c (Proc.devRef .tc main_v1)).trans (W2_v1 m ρ c)
theorem W3_v3 (c : Dev nD) : W3 m ρ c (Proc.devRef .tc main_v3) = dstOf (m ((c : Thread nD τ).loc main_arg1)) :=
  (by not_written hostOps1 : W3 m ρ c (Proc.devRef .tc main_v3) = W2 m ρ c (Proc.devRef .tc main_v3)).trans (W2_v3 m ρ c)
theorem W3_arg6 (c : Dev nD) : W3 m ρ c (Proc.devRef .tc main_arg6) = m ((c : Thread nD τ).loc main_arg6) :=
  (by not_written hostOps1 : W3 m ρ c (Proc.devRef .tc main_arg6) = W2 m ρ c (Proc.devRef .tc main_arg6)).trans (W2_arg6 m ρ c)
theorem W3_arg7 (c : Dev nD) : W3 m ρ c (Proc.devRef .tc main_arg7) = m ((c : Thread nD τ).loc main_arg7) :=
  (by not_written hostOps1 : W3 m ρ c (Proc.devRef .tc main_arg7) = W2 m ρ c (Proc.devRef .tc main_arg7)).trans (W2_arg7 m ρ c)
theorem W3_v17 (c : Dev nD) : W3 m ρ c (Proc.devRef .tc main_v17) = meanOf (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h : W3 m ρ c (Proc.devRef .tc main_v17) = meanOf (W2 m ρ c (Proc.devRef .tc main_v14)) := by
    dsimp only [W3, hostOps1]
    after_results
    rfl
  rw [h, W2_v14 m ρ c]
theorem W3_v24 (c : Dev nD) : W3 m ρ c (Proc.devRef .tc main_v24) = varOf (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (meanOf (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) := by
  have h : W3 m ρ c (Proc.devRef .tc main_v24)
      = varOf (W2 m ρ c (Proc.devRef .tc main_v14)) (meanOf (W2 m ρ c (Proc.devRef .tc main_v14))) := by
    dsimp only [W3, hostOps1]
    after_results
    rfl
  rw [h, W2_v14 m ρ c]

/-! ## After region 1: the normalised features -/

theorem W4_v25 (c : Dev nD) : W4 m ρ c (Proc.devRef .tc main_v25) = normed (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine (W4_arr m ρ c 5).trans ((Region1.arr (V3 m ρ) Pay.pay1_eq c).trans ?_)
  rw [show V3 m ρ c main_v14 = _ from W3_v14 m ρ c, show V3 m ρ c main_v17 = _ from W3_v17 m ρ c,
    show V3 m ρ c main_v24 = _ from W3_v24 m ρ c, show V3 m ρ c main_arg6 = _ from W3_arg6 m ρ c,
    show V3 m ρ c main_arg7 = _ from W3_arg7 m ρ c]
  rfl
theorem W4_v1 (c : Dev nD) : W4 m ρ c (Proc.devRef .tc main_v1) = srcOf (m ((c : Thread nD τ).loc main_arg1)) :=
  (W4_of_ne m ρ c main_v1 (by decide)).trans (W3_v1 m ρ c)
theorem W4_v3 (c : Dev nD) : W4 m ρ c (Proc.devRef .tc main_v3) = dstOf (m ((c : Thread nD τ).loc main_arg1)) :=
  (W4_of_ne m ρ c main_v3 (by decide)).trans (W3_v3 m ρ c)

/-! ## After the third host stretch (region 2's entry): the neighbour sums of the normalised features -/

theorem W5_v25 (c : Dev nD) : W5 m ρ c (Proc.devRef .tc main_v25) = normed (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) :=
  (by not_written hostOps2 : W5 m ρ c (Proc.devRef .tc main_v25) = W4 m ρ c (Proc.devRef .tc main_v25)).trans (W4_v25 m ρ c)
theorem W5_v35 (c : Dev nD) : W5 m ρ c (Proc.devRef .tc main_v35) = aggOf (normed (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7))) (srcOf (m ((c : Thread nD τ).loc main_arg1))) (dstOf (m ((c : Thread nD τ).loc main_arg1))) := by
  have h : W5 m ρ c (Proc.devRef .tc main_v35)
      = aggOf (W4 m ρ c (Proc.devRef .tc main_v25)) (W4 m ρ c (Proc.devRef .tc main_v1)) (W4 m ρ c (Proc.devRef .tc main_v3)) := by
    dsimp only [W5, hostOps2]
    after_results
    rfl
  rw [h, W4_v25 m ρ c, W4_v1 m ρ c, W4_v3 m ρ c]
/-- An input array of region 2 holds at the region's exit what it held at its entry, and at the exit the arguments
    are as launched. -/
theorem W5_arg8 (c : Dev nD) : W5 m ρ c (Proc.devRef .tc main_arg8) = m ((c : Thread nD τ).loc main_arg8) :=
  ((W6_arr m ρ c 2).trans (((dat2 (V5 m ρ) c).arrAt_in 2 rfl _).trans (A_eq2 (V5 m ρ) c 2))).symm.trans (W6_main_arg8 m ρ c)
theorem W5_arg9 (c : Dev nD) : W5 m ρ c (Proc.devRef .tc main_arg9) = m ((c : Thread nD τ).loc main_arg9) :=
  ((W6_arr m ρ c 3).trans (((dat2 (V5 m ρ) c).arrAt_in 3 rfl _).trans (A_eq2 (V5 m ρ) c 3))).symm.trans (W6_main_arg9 m ρ c)
theorem W5_arg10 (c : Dev nD) : W5 m ρ c (Proc.devRef .tc main_arg10) = m ((c : Thread nD τ).loc main_arg10) :=
  ((W6_arr m ρ c 4).trans (((dat2 (V5 m ρ) c).arrAt_in 4 rfl _).trans (A_eq2 (V5 m ρ) c 4))).symm.trans (W6_main_arg10 m ρ c)
theorem W5_arg11 (c : Dev nD) : W5 m ρ c (Proc.devRef .tc main_arg11) = m ((c : Thread nD τ).loc main_arg11) :=
  ((W6_arr m ρ c 5).trans (((dat2 (V5 m ρ) c).arrAt_in 5 rfl _).trans (A_eq2 (V5 m ρ) c 5))).symm.trans (W6_main_arg11 m ρ c)

/-! ## After region 2: the result -/

/-- THE RESULT BUFFER at the last boundary: the whole computation of the launch contents of the arguments. -/
theorem W6_v36 (c : Dev nD) : W6 m ρ c (Proc.devRef .tc main_v36)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 6).trans ((Region2.arr (V5 m ρ) Pay.pay2_eq c).trans ?_)
  rw [show V5 m ρ c main_v35 = _ from W5_v35 m ρ c, show V5 m ρ c main_v25 = _ from W5_v25 m ρ c,
    show V5 m ρ c main_arg8 = _ from W5_arg8 m ρ c, show V5 m ρ c main_arg9 = _ from W5_arg9 m ρ c,
    show V5 m ρ c main_arg10 = _ from W5_arg10 m ρ c, show V5 m ρ c main_arg11 = _ from W5_arg11 m ρ c]
  rfl

end Cert.KernelIdeal.Chain

end
-- ==== Proof.RefValue.lean ====
/-
  The reference's result, stage by stage, is the same composition: its host gather / scatter-add, mean and
  variance stages ARE the shared host functions (the same operations on the same operands), and its
  matrix products with bias and relu, and its normalisation, are the specification's layers, read index by index:
  a `dot_general` over one shared axis is the sum over that axis, a bias `[128]` made `[1, 128]` and broadcast
  down the rows reads at `(r, q)` the bias at `q`, and the host's `rsqrt` is the same function of an extended
  real as the vector unit's.
-/
import proofs.«123605_j66915590472498_1_alg».proof.Proof.Gen.ReferenceIdeal.Run
import proofs.«123605_j66915590472498_1_alg».proof.Proof.Gen.ReferenceIdeal.Read
import proofs.«123605_j66915590472498_1_alg».proof.Proof.Gen.KernelIdeal
import proofs.«123605_j66915590472498_1_alg».proof.Proof.Spec
import proofs.«123605_j66915590472498_1_alg».proof.Proof.HostFns
import Idealize.ShloMosaic.Lib.ValueIdx

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Read Cert.GinSpec Cert.GinHost

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))

/-! ## The host stages are the shared host functions -/

theorem v13_eq : val_main_v13 (F := Ideal) x0 x1 = aggOf x0 (srcOf x1) (dstOf x1) := rfl

theorem v27_eq : val_main_v27 (F := Ideal) x0 x1 x2 x3 x4 x5 = meanOf (val_main_v24 (F := Ideal) x0 x1 x2 x3 x4 x5) := rfl

theorem v34_eq : val_main_v34 (F := Ideal) x0 x1 x2 x3 x4 x5
    = varOf (val_main_v24 (F := Ideal) x0 x1 x2 x3 x4 x5) (val_main_v27 (F := Ideal) x0 x1 x2 x3 x4 x5) := rfl

theorem v59_eq : val_main_v59 (F := Ideal) x0 x1 x2 x3 x4 x5 x6 x7
    = aggOf (val_main_v49 (F := Ideal) x0 x1 x2 x3 x4 x5 x6 x7) (srcOf x1) (dstOf x1) := rfl

/-! ## The composed index maps at an index given by its coordinates -/

theorem lidx15 (r : Fin 100000) (k j : Fin 128) : lidx_main_v15 (ix2 r k) j = ix2 r j :=
  funext fun a => Fin.ext (by match a with | ⟨0, _⟩ => rfl | ⟨1, _⟩ => rfl)
theorem ridx15 (r : Fin 100000) (k j : Fin 128) : ridx_main_v15 (ix2 r k) j = ix2 j k :=
  funext fun a => Fin.ext (by match a with | ⟨0, _⟩ => rfl | ⟨1, _⟩ => rfl)
theorem lidx20 (r : Fin 100000) (q k : Fin 128) : lidx_main_v20 (ix2 r q) k = ix2 r k :=
  funext fun a => Fin.ext (by match a with | ⟨0, _⟩ => rfl | ⟨1, _⟩ => rfl)
theorem ridx20 (r : Fin 100000) (q k : Fin 128) : ridx_main_v20 (ix2 r q) k = ix2 k q :=
  funext fun a => Fin.ext (by match a with | ⟨0, _⟩ => rfl | ⟨1, _⟩ => rfl)
theorem bias17 (r : Fin 100000) (k : Fin 128) : idx_main_v16 (idx_main_v17 (ix2 r k)) = ix1 k :=
  funext fun a => Fin.ext (by match a with | ⟨0, _⟩ => rfl)
theorem bias22 (r : Fin 100000) (q : Fin 128) : idx_main_v21 (idx_main_v22 (ix2 r q)) = ix1 q :=
  funext fun a => Fin.ext (by match a with | ⟨0, _⟩ => rfl)

/-- The hidden activation, as the reference computes it, is the specification's. -/
theorem v19_eq : val_main_v19 (F := Ideal) x0 x1 x2 x3 = hidden (val_main_v13 (F := Ideal) x0 x1) x0 x2 x3 := by
  funext i
  obtain ⟨r, k, rfl⟩ : ∃ (r : Fin 100000) (k : Fin 128), i = ix2 r k := ⟨i 0, i 1, eq_ix2 i⟩
  rw [val_main_v19_apply, val_main_v18_apply, val_main_v15_apply, val_main_v17_apply, val_main_v16_apply,
    val_main_call0_v0_apply, val_main_call0_cst_apply, bias17]
  show max ((∑ j : Fin 128, val_main_v14 (F := Ideal) x0 x1 (lidx_main_v15 (ix2 r k) j) * x2 (ridx_main_v15 (ix2 r k) j)) + x3 (ix1 k)) zero
     = max ((∑ j : Fin 128, (val_main_v13 (F := Ideal) x0 x1 (ix2 r j) + x0 (ix2 r j)) * x2 (ix2 j k)) + x3 (ix1 k)) zero
  refine congrArg (fun s : Ideal .f32 => max (s + x3 (ix1 k)) zero) (Finset.sum_congr rfl fun j _ => ?_)
  rw [lidx15, ridx15, val_main_v14_apply]
  rfl

/-- The first layer with its relu, as the reference computes it, is the specification's `gin1` of the neighbour sums. -/
theorem v24_eq : val_main_v24 (F := Ideal) x0 x1 x2 x3 x4 x5
    = gin1 (val_main_v13 (F := Ideal) x0 x1) x0 x2 x3 x4 x5 := by
  funext i
  obtain ⟨r, q, rfl⟩ : ∃ (r : Fin 100000) (q : Fin 128), i = ix2 r q := ⟨i 0, i 1, eq_ix2 i⟩
  rw [val_main_v24_apply, val_main_v23_apply, val_main_v20_apply, val_main_v22_apply, val_main_v21_apply,
    val_main_call1_v0_apply, val_main_call1_cst_apply, bias22, v19_eq]
  show max ((∑ k : Fin 128, hidden (val_main_v13 (F := Ideal) x0 x1) x0 x2 x3 (lidx_main_v20 (ix2 r q) k) * x4 (ridx_main_v20 (ix2 r q) k)) + x5 (ix1 q)) zero
     = max ((∑ k : Fin 128, hidden (val_main_v13 (F := Ideal) x0 x1) x0 x2 x3 (ix2 r k) * x4 (ix2 k q)) + x5 (ix1 q)) zero
  refine congrArg (fun s : Ideal .f32 => max (s + x5 (ix1 q)) zero) (Finset.sum_congr rfl fun k _ => ?_)
  rw [lidx20, ridx20]

/-! ## The normalisation -/

theorem bias36 (r : Fin 100000) (q : Fin 128) : idx_main_v35 (idx_main_v36 (ix2 r q)) = ix1 q :=
  funext fun a => Fin.ext (by match a with | ⟨0, _⟩ => rfl)
theorem bias42 (r : Fin 100000) (q : Fin 128) : idx_main_v41 (idx_main_v42 (ix2 r q)) = ix1 q :=
  funext fun a => Fin.ext (by match a with | ⟨0, _⟩ => rfl)
theorem bias45 (r : Fin 100000) (q : Fin 128) : idx_main_v44 (idx_main_v45 (ix2 r q)) = ix1 q :=
  funext fun a => Fin.ext (by match a with | ⟨0, _⟩ => rfl)
theorem bias48 (r : Fin 100000) (q : Fin 128) : idx_main_v47 (idx_main_v48 (ix2 r q)) = ix1 q :=
  funext fun a => Fin.ext (by match a with | ⟨0, _⟩ => rfl)

/-- The reference's normalisation is the specification's, with the column statistics it computed. -/
theorem v49_eq : val_main_v49 (F := Ideal) x0 x1 x2 x3 x4 x5 x6 x7
    = bn (val_main_v24 (F := Ideal) x0 x1 x2 x3 x4 x5) (val_main_v27 (F := Ideal) x0 x1 x2 x3 x4 x5) (val_main_v34 (F := Ideal) x0 x1 x2 x3 x4 x5) x6 x7 := by
  funext i
  obtain ⟨r, q, rfl⟩ : ∃ (r : Fin 100000) (q : Fin 128), i = ix2 r q := ⟨i 0, i 1, eq_ix2 i⟩
  rw [val_main_v49_apply, val_main_v46_apply, val_main_v43_apply, val_main_v37_apply, val_main_v36_apply, val_main_v35_apply,
    val_main_v42_apply, val_main_v41_apply, val_main_v40_apply, val_main_v39_apply, val_main_v38_apply, val_main_cst_5_apply,
    val_main_v45_apply, val_main_v44_apply, val_main_v48_apply, val_main_v47_apply, bias36, bias42, bias45, bias48]
  rfl

/-! ## The second layer -/

theorem lidx61 (r : Fin 100000) (k j : Fin 128) : lidx_main_v61 (ix2 r k) j = ix2 r j :=
  funext fun a => Fin.ext (by match a with | ⟨0, _⟩ => rfl | ⟨1, _⟩ => rfl)
theorem ridx61 (r : Fin 100000) (k j : Fin 128) : ridx_main_v61 (ix2 r k) j = ix2 j k :=
  funext fun a => Fin.ext (by match a with | ⟨0, _⟩ => rfl | ⟨1, _⟩ => rfl)
theorem lidx66 (r : Fin 100000) (q k : Fin 128) : lidx_main_v66 (ix2 r q) k = ix2 r k :=
  funext fun a => Fin.ext (by match a with | ⟨0, _⟩ => rfl | ⟨1, _⟩ => rfl)
theorem ridx66 (r : Fin 100000) (q k : Fin 128) : ridx_main_v66 (ix2 r q) k = ix2 k q :=
  funext fun a => Fin.ext (by match a with | ⟨0, _⟩ => rfl | ⟨1, _⟩ => rfl)
theorem bias63 (r : Fin 100000) (k : Fin 128) : idx_main_v62 (idx_main_v63 (ix2 r k)) = ix1 k :=
  funext fun a => Fin.ext (by match a with | ⟨0, _⟩ => rfl)
theorem bias68 (r : Fin 100000) (q : Fin 128) : idx_main_v67 (idx_main_v68 (ix2 r q)) = ix1 q :=
  funext fun a => Fin.ext (by match a with | ⟨0, _⟩ => rfl)

/-- The second layer's hidden activation, as the reference computes it, is the specification's. -/
theorem v65_eq : val_main_v65 (F := Ideal) x0 x1 x2 x3 x4 x5 x6 x7 x8 x9
    = hidden (val_main_v59 (F := Ideal) x0 x1 x2 x3 x4 x5 x6 x7) (val_main_v49 (F := Ideal) x0 x1 x2 x3 x4 x5 x6 x7) x8 x9 := by
  funext i
  obtain ⟨r, k, rfl⟩ : ∃ (r : Fin 100000) (k : Fin 128), i = ix2 r k := ⟨i 0, i 1, eq_ix2 i⟩
  rw [val_main_v65_apply, val_main_v64_apply, val_main_v61_apply, val_main_v63_apply, val_main_v62_apply,
    val_main_call2_v0_apply, val_main_call2_cst_apply, bias63]
  show max ((∑ j : Fin 128, val_main_v60 (F := Ideal) x0 x1 x2 x3 x4 x5 x6 x7 (lidx_main_v61 (ix2 r k) j) * x8 (ridx_main_v61 (ix2 r k) j)) + x9 (ix1 k)) zero
     = max ((∑ j : Fin 128, (val_main_v59 (F := Ideal) x0 x1 x2 x3 x4 x5 x6 x7 (ix2 r j) + val_main_v49 (F := Ideal) x0 x1 x2 x3 x4 x5 x6 x7 (ix2 r j)) * x8 (ix2 j k)) + x9 (ix1 k)) zero
  refine congrArg (fun s : Ideal .f32 => max (s + x9 (ix1 k)) zero) (Finset.sum_congr rfl fun j _ => ?_)
  rw [lidx61, ridx61, val_main_v60_apply]
  rfl

/-- The second layer, as the reference computes it, is the specification's `gin2` of the neighbour sums. -/
theorem v69_eq : val_main_v69 (F := Ideal) x0 x1 x2 x3 x4 x5 x6 x7 x8 x9 x10 x11
    = gin2 (val_main_v59 (F := Ideal) x0 x1 x2 x3 x4 x5 x6 x7) (val_main_v49 (F := Ideal) x0 x1 x2 x3 x4 x5 x6 x7) x8 x9 x10 x11 := by
  funext i
  obtain ⟨r, q, rfl⟩ : ∃ (r : Fin 100000) (q : Fin 128), i = ix2 r q := ⟨i 0, i 1, eq_ix2 i⟩
  rw [val_main_v69_apply, val_main_v66_apply, val_main_v68_apply, val_main_v67_apply, bias68, v65_eq]
  show (∑ k : Fin 128, hidden (val_main_v59 (F := Ideal) x0 x1 x2 x3 x4 x5 x6 x7) (val_main_v49 (F := Ideal) x0 x1 x2 x3 x4 x5 x6 x7) x8 x9 (lidx_main_v66 (ix2 r q) k) * x10 (ridx_main_v66 (ix2 r q) k)) + x11 (ix1 q)
     = (∑ k : Fin 128, hidden (val_main_v59 (F := Ideal) x0 x1 x2 x3 x4 x5 x6 x7) (val_main_v49 (F := Ideal) x0 x1 x2 x3 x4 x5 x6 x7) x8 x9 (ix2 r k) * x10 (ix2 k q)) + x11 (ix1 q)
  refine congrArg (fun s : Ideal .f32 => s + x11 (ix1 q)) (Finset.sum_congr rfl fun k _ => ?_)
  rw [lidx66, ridx66]

/-! ## The reference's result -/

/-- THE REFERENCE'S RESULT is the whole computation of its arguments' launch contents. -/
theorem res_eq (m : (ℓ : Loc nD τ sig) → Buf (Elt Ideal) ℓ) (c : Dev nD) :
    Cert.ReferenceIdeal.Value.res_main_v69 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rw [val_main_v69_eq, v69_eq, v59_eq, v49_eq, v34_eq, v27_eq, v24_eq, v13_eq]
  rfl

end Cert.ReferenceIdeal.RefValue

end
-- ==== Proof.lean ====
/-
  Two graph-isomorphism layers with a batch normalisation between them, computed by three row-tiled kernels with
  the neighbour sums and the column statistics left to the host, against the same computation written with whole
  matrix products on the host.

  Over the extended reals both programs return `result` of their twelve arguments (HostFns): the neighbour sums,
  column means and variances are the same host operations on both sides; each kernel computes a row-local map
  (two affine layers with relus, or the normalisation), so its twenty row blocks assemble to that map of the whole
  arrays (Region0 … Region2, read back through the run in Chain); a change of float format is the identity, a matrix
  product into a zero accumulator is the plain sum over the shared axis, exactly what the host's `dot_general` is,
  and the host's `rsqrt` is the vector unit's function of an extended real (RefValue). No law used needs the inputs
  finite. The frames are the generated ones; the idealisation rewrote nothing.
-/
import proofs.«123605_j66915590472498_1_alg».proof.Defs
import proofs.«123605_j66915590472498_1_alg».proof.Proof.Gen.Kernel
import proofs.«123605_j66915590472498_1_alg».proof.Proof.Gen.Kernel.Frame
import proofs.«123605_j66915590472498_1_alg».proof.Proof.Gen.KernelIdeal
import proofs.«123605_j66915590472498_1_alg».proof.Proof.Gen.KernelIdeal.Frame
import proofs.«123605_j66915590472498_1_alg».proof.Proof.Gen.ReferenceIdeal
import proofs.«123605_j66915590472498_1_alg».proof.Proof.Gen.ReferenceIdeal.Run
import proofs.«123605_j66915590472498_1_alg».proof.Proof.Gen.Pre_finite_inputs
import proofs.«123605_j66915590472498_1_alg».proof.Proof.Launched
import proofs.«123605_j66915590472498_1_alg».proof.Proof.Chain
import proofs.«123605_j66915590472498_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at `result` of the arguments: the kernel program's by the run read back
    through its regions, the reference's by its stages; the arguments agree. -/
theorem algebraic : Cert.algebraic_KernelIdeal_ReferenceIdeal := by
  intro m ρ m' ρ' _ hagree
  refine ⟨fun c => Cert.GinHost.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.W6_v36 m ρ c), (h c).2⟩)
      (Cert.KernelIdeal.Launched.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefValue.res_eq m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
